-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S12288x1024 : Shape := ⟨2, ![12288, 1024]⟩
abbrev S1 : Shape := ⟨1, ![1]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S2x2048x4096 .f32) (main_arg1 : IVec S12288x1024 32) (main_arg2 : FVec F S1 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  main_v8
-- ==== Kernel.lean ====
abbrev S2x2048x4096 : Shape := ⟨3, ![2, 2048, 4096]⟩
abbrev S12288x1024 : Shape := ⟨2, ![12288, 1024]⟩
abbrev S1 : Shape := ⟨1, ![1]⟩
abbrev S4 : Shape := ⟨1, ![4]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S12288x32x32 : Shape := ⟨3, ![12288, 32, 32]⟩
abbrev S12288x32x1x32 : Shape := ⟨4, ![12288, 32, 1, 32]⟩
abbrev S1x1x4x1 : Shape := ⟨4, ![1, 1, 4, 1]⟩
abbrev S12288x32x4x32 : Shape := ⟨4, ![12288, 32, 4, 32]⟩
abbrev S12288x4096 : Shape := ⟨2, ![12288, 4096]⟩
abbrev S1x1 : Shape := ⟨2, ![1, 1]⟩
abbrev S4096x12288 : Shape := ⟨2, ![4096, 12288]⟩
abbrev S512x4096 : Shape := ⟨2, ![512, 4096]⟩
abbrev S1024x4096 : Shape := ⟨2, ![1024, 4096]⟩
abbrev S512x1 : Shape := ⟨2, ![512, 1]⟩
abbrev S512x1024 : Shape := ⟨2, ![512, 1024]⟩
abbrev S2x2048x12288 : Shape := ⟨3, ![2, 2048, 12288]⟩

abbrev nBuf : Space → Nat
  | .hbm => 49
  | .vmem => 9
  | .smem => 0
  | _ => 0

abbrev bufTy : (tb : Table) → Fin (tcTables nBuf tb) → BufTy
  | .hbm, ⟨0, _⟩ => ⟨S2x2048x4096, .f32⟩
  | .hbm, ⟨1, _⟩ => ⟨S12288x1024, .i32⟩
  | .hbm, ⟨2, _⟩ => ⟨S1, .f32⟩
  | .hbm, ⟨3, _⟩ => ⟨S4, .i32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x4096, .bf16⟩
  | .hbm, ⟨31, _⟩ => ⟨S12288x32x32, .i32⟩
  | .hbm, ⟨32, _⟩ => ⟨S12288x32x1x32, .i32⟩
  | .hbm, ⟨33, _⟩ => ⟨S1x1x4x1, .i32⟩
  | .hbm, ⟨34, _⟩ => ⟨S12288x32x4x32, .i32⟩
  | .hbm, ⟨35, _⟩ => ⟨S12288x32x4x32, .i32⟩
  | .hbm, ⟨36, _⟩ => ⟨S12288x32x4x32, .i32⟩
  | .hbm, ⟨37, _⟩ => ⟨S_, .i32⟩
  | .hbm, ⟨38, _⟩ => ⟨S12288x32x4x32, .i32⟩
  | .hbm, ⟨39, _⟩ => ⟨S12288x32x4x32, .i32⟩
  | .hbm, ⟨40, _⟩ => ⟨S12288x32x4x32, .f32⟩
  | .hbm, ⟨41, _⟩ => ⟨S_, .f32⟩
  | .hbm, ⟨42, _⟩ => ⟨S12288x32x4x32, .f32⟩
  | .hbm, ⟨43, _⟩ => ⟨S12288x32x4x32, .f32⟩
  | .hbm, ⟨44, _⟩ => ⟨S12288x4096, .f32⟩
  | .hbm, ⟨45, _⟩ => ⟨S12288x4096, .bf16⟩
  | .hbm, ⟨46, _⟩ => ⟨S1x1, .f32⟩
  | .hbm, ⟨47, _⟩ => ⟨S4096x12288, .f32⟩
  | .hbm, ⟨48, _⟩ => ⟨S2x2048x12288, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S1024x4096, .bf16⟩
  | .local _ .vmem, ⟨4, _⟩ => ⟨S512x1, .f32⟩
  | .local _ .vmem, ⟨5, _⟩ => ⟨S512x1, .f32⟩
  | .local _ .vmem, ⟨6, _⟩ => ⟨S1x1, .f32⟩
  | .local _ .vmem, ⟨7, _⟩ => ⟨S512x1024, .f32⟩
  | .local _ .vmem, ⟨8, _⟩ => ⟨S512x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_cst_3 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_v10 : Ref sig .tc := ⟨.hbm, 26, rfl⟩
abbrev main_cst_4 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![12, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2x2048x4096_S4096x4096 : S2x2048x4096.ShapeCasts S4096x4096
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  bitsLt_bf16_f32 : FTy.bits .bf16 < FTy.bits .f32
  shapeCasts_S12288x1024_S12288x32x32 : S12288x1024.ShapeCasts S12288x32x32
  bcast_S12288x32x32_S12288x32x1x32_0_1_3 : S12288x32x32.BroadcastsInDim S12288x32x1x32 (![0, 1, 3] : Fin 3 → Fin S12288x32x1x32.rank)
  bcast_S4_S1x1x4x1_2 : S4.BroadcastsInDim S1x1x4x1 (![2] : Fin 1 → Fin S1x1x4x1.rank)
  bcast_S12288x32x1x32_S12288x32x4x32_0_1_2_3 : S12288x32x1x32.BroadcastsInDim S12288x32x4x32 (![0, 1, 2, 3] : Fin 4 → Fin S12288x32x4x32.rank)
  bcast_S1x1x4x1_S12288x32x4x32_0_1_2_3 : S1x1x4x1.BroadcastsInDim S12288x32x4x32 (![0, 1, 2, 3] : Fin 4 → Fin S12288x32x4x32.rank)
  bcast_S_S12288x32x4x32 : S_.BroadcastsInDim S12288x32x4x32 (![] : Fin 0 → Fin S12288x32x4x32.rank)
  shapeCasts_S12288x32x4x32_S12288x4096 : S12288x32x4x32.ShapeCasts S12288x4096
  shapeCasts_S1_S1x1 : S1.ShapeCasts S1x1
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  broadcasts_S512x1_S512x1024 : S512x1.Broadcasts S512x1024
  inb_S512x1024_S512x1024_0_0 : ∀ a, (![0, 0] : Fin 2 → Nat) a + S512x1024.size a ≤ S512x1024.size a
  h_S512x1024 : 0 < S512x1024.numel
  shapeCasts_S4096x12288_S2x2048x12288 : S4096x12288.ShapeCasts S2x2048x12288
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S12288x4096.size a
  hwx0_1 : ∀ i : grid0.Coords, EltTy.bits .bf16 = 32 ∨ (Rect.block (s := S12288x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x12288.size a
  hwx0_4 : ∀ i : grid0.Coords, EltTy.bits .f32 = 32 ∨ (Rect.block (s := S4096x12288) S512x1024.size (cc0_transform_4 i) (hinb0_4 i)).WholeWords (EltTy.packing .f32)

variable [Facts₀]

def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v13) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x2048x4096 : Shape := ⟨3, ![2, 2048, 4096]⟩
abbrev S12288x1024 : Shape := ⟨2, ![12288, 1024]⟩
abbrev S1 : Shape := ⟨1, ![1]⟩
abbrev S4 : Shape := ⟨1, ![4]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S12288x32x32 : Shape := ⟨3, ![12288, 32, 32]⟩
abbrev S12288x32x1x32 : Shape := ⟨4, ![12288, 32, 1, 32]⟩
abbrev S1x1x4x1 : Shape := ⟨4, ![1, 1, 4, 1]⟩
abbrev S12288x32x4x32 : Shape := ⟨4, ![12288, 32, 4, 32]⟩
abbrev S12288x4096 : Shape := ⟨2, ![12288, 4096]⟩
abbrev S4096x12288 : Shape := ⟨2, ![4096, 12288]⟩
abbrev S2x2048x12288 : Shape := ⟨3, ![2, 2048, 12288]⟩

abbrev nBuf : Space → Nat
  | .hbm => 51
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S12288x1024, .i32⟩
  | .hbm, ⟨2, _⟩ => ⟨S1, .f32⟩
  | .hbm, ⟨3, _⟩ => ⟨S4, .i32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S12288x32x32, .i32⟩
  | .hbm, ⟨31, _⟩ => ⟨S12288x32x1x32, .i32⟩
  | .hbm, ⟨32, _⟩ => ⟨S1x1x4x1, .i32⟩
  | .hbm, ⟨33, _⟩ => ⟨S12288x32x4x32, .i32⟩
  | .hbm, ⟨34, _⟩ => ⟨S12288x32x4x32, .i32⟩
  | .hbm, ⟨35, _⟩ => ⟨S12288x32x4x32, .i32⟩
  | .hbm, ⟨36, _⟩ => ⟨S_, .i32⟩
  | .hbm, ⟨37, _⟩ => ⟨S12288x32x4x32, .i32⟩
  | .hbm, ⟨38, _⟩ => ⟨S12288x32x4x32, .i32⟩
  | .hbm, ⟨39, _⟩ => ⟨S12288x32x4x32, .f32⟩
  | .hbm, ⟨40, _⟩ => ⟨S_, .f32⟩
  | .hbm, ⟨41, _⟩ => ⟨S12288x32x4x32, .f32⟩
  | .hbm, ⟨42, _⟩ => ⟨S12288x32x4x32, .f32⟩
  | .hbm, ⟨43, _⟩ => ⟨S12288x4096, .f32⟩
  | .hbm, ⟨44, _⟩ => ⟨S4096x12288, .f32⟩
  | .hbm, ⟨45, _⟩ => ⟨S_, .f32⟩
  | .hbm, ⟨46, _⟩ => ⟨S4096x12288, .f32⟩
  | .hbm, ⟨47, _⟩ => ⟨S4096x12288, .f32⟩
  | .hbm, ⟨48, _⟩ => ⟨S4096x12288, .f32⟩
  | .hbm, ⟨49, _⟩ => ⟨S4096x12288, .f32⟩
  | .hbm, ⟨50, _⟩ => ⟨S2x2048x12288, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_cst_3 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_v10 : Ref sig .tc := ⟨.hbm, 26, rfl⟩
abbrev main_cst_4 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩

abbrev nD : Nat := 1
abbrev τ : Topo := Topo.v7x

variable {F : FTy → Type} [FloatOps F]

class Facts₀ : Prop where
  shapeCasts_S2x2048x4096_S4096x4096 : S2x2048x4096.ShapeCasts S4096x4096
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  shapeCasts_S12288x1024_S12288x32x32 : S12288x1024.ShapeCasts S12288x32x32
  bcast_S12288x32x32_S12288x32x1x32_0_1_3 : S12288x32x32.BroadcastsInDim S12288x32x1x32 (![0, 1, 3] : Fin 3 → Fin S12288x32x1x32.rank)
  bcast_S4_S1x1x4x1_2 : S4.BroadcastsInDim S1x1x4x1 (![2] : Fin 1 → Fin S1x1x4x1.rank)
  bcast_S12288x32x1x32_S12288x32x4x32_0_1_2_3 : S12288x32x1x32.BroadcastsInDim S12288x32x4x32 (![0, 1, 2, 3] : Fin 4 → Fin S12288x32x4x32.rank)
  bcast_S1x1x4x1_S12288x32x4x32_0_1_2_3 : S1x1x4x1.BroadcastsInDim S12288x32x4x32 (![0, 1, 2, 3] : Fin 4 → Fin S12288x32x4x32.rank)
  bcast_S_S12288x32x4x32 : S_.BroadcastsInDim S12288x32x4x32 (![] : Fin 0 → Fin S12288x32x4x32.rank)
  shapeCasts_S12288x32x4x32_S12288x4096 : S12288x32x4x32.ShapeCasts S12288x4096
  shapeCasts_S1_S_ : S1.ShapeCasts S_
  bcast_S_S4096x12288 : S_.BroadcastsInDim S4096x12288 (![] : Fin 0 → Fin S4096x12288.rank)
  bcast_S4096x1_S4096x12288_0_1 : S4096x1.BroadcastsInDim S4096x12288 (![0, 1] : Fin 2 → Fin S4096x12288.rank)
  shapeCasts_S4096x12288_S2x2048x12288 : S4096x12288.ShapeCasts S2x2048x12288
  dot_S4096x4096_S12288x4096_S4096x12288_1_1_0_0_n_n_wf : DotDims.WF S4096x4096 S12288x4096 S4096x12288 [1] [1] [0] [0] [] []

variable [Facts₀]

def dot_S4096x4096_S12288x4096_S4096x12288_1_1_0_0_n_n : DotDims S4096x4096 S12288x4096 S4096x12288 where
  lhsContracting := [1]
  rhsContracting := [1]
  lhsNonContracting := [0]
  rhsNonContracting := [0]
  lhsBatch := []
  rhsBatch := []
  wf := dot_S4096x4096_S12288x4096_S4096x12288_1_1_0_0_n_n_wf

class Facts : Prop extends Facts₀ where

variable [Facts]
-- ==== Proof.LibDotTransposedRhs.lean ====
/-
  A matrix product whose right operand is contracted on its LAST axis — an M×K array times an N×K array, the
  dimension numbers `[1] [1] [0] [0] [] []` of `DotDims.transposedRhs` — read at one output index at the ideal
  values: entry (a, b) is the sum over the contracted coordinate c of A(a, c) · B(b, c). Stated for the host's
  `dot_general` and for a `tpu.matmul` accumulating into the zero splat, over ANY witness of the dimension
  numbers' well-formedness, so that a record a program states with its own witness is an instance.

  The contraction index of such a product has one axis; `contrEquiv1` identifies it with `Fin K`, and under that
  identification the left operand's index at (a, b), c is (a, c) and the right operand's is (b, c): each
  non-contracting axis reads the output index, each contracting axis the contracted coordinate.
-/
import Idealize.ShloMosaic.Lib.ValueIdx
import Idealize.ShloMosaic.PureOps.Ideal.Laws

noncomputable section

open scoped BigOperators

namespace Idealize.ShloMosaic.DotTransposedRhs

open Idealize.ShloMosaic Idealize.ShloMosaic.ValueIdx

variable {M K N : Nat}

/-- The dimension numbers `[1] [1] [0] [0] [] []` over a given well-formedness witness. -/
abbrev dims (w : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], w⟩

variable (w : DotDims.WF ⟨2, ![M, K]⟩ ⟨2, ![N, K]⟩ ⟨2, ![M, N]⟩ [1] [1] [0] [0] [] [])

/-- The left operand's index at output (a, b) and contracted coordinate c is (a, c). -/
theorem lhsIdx_eq (a : Fin M) (b : Fin N) (c : Fin K) :
    (dims w).lhsIdx (ix2 a b) ((contrEquiv1 (dims w) K rfl rfl).symm c) = ix2 a c := by
  have c2 := contrEquiv1_symm_val (dims w) K rfl rfl c
  funext ax; apply Fin.ext
  match ax with
  | ⟨0, _⟩ => simp [DotDims.lhsIdx]; rfl
  | ⟨1, _⟩ => simp [DotDims.lhsIdx]; exact c2

/-- The right operand's index at output (a, b) and contracted coordinate c is (b, c). -/
theorem rhsIdx_eq (a : Fin M) (b : Fin N) (c : Fin K) :
    (dims w).rhsIdx (ix2 a b) ((contrEquiv1 (dims w) K rfl rfl).symm c) = ix2 b c := by
  have c2 := contrEquiv1_symm_val (dims w) K rfl rfl c
  funext ax; apply Fin.ext
  match ax with
  | ⟨0, _⟩ => simp [DotDims.rhsIdx]; rfl
  | ⟨1, _⟩ => simp [DotDims.rhsIdx]; exact c2

/-- The host's `dot_general` with these dimension numbers, at the ideal values, read at (a, b): the sum over the
    contracted coordinate of the products of the two rows' entries. -/
theorem dotGeneral_apply {φ₁ φ₂ : FTy} (prec : Option ContractPrecision)
    (A : FVec Ideal ⟨2, ![M, K]⟩ φ₁) (B : FVec Ideal ⟨2, ![N, K]⟩ φ₂) (a : Fin M) (b : Fin N) :
    Host.dotGeneral (dims w) prec A B (ix2 a b) = ∑ c : Fin K, A (ix2 a c) * B (ix2 b c) := by
  show FloatOps.dotGeneral _ prec _ A B (ix2 a b) = _
  rw [Ideal.dotGeneral_apply, ← Equiv.sum_comp (contrEquiv1 (dims w) K rfl rfl).symm]
  refine Finset.sum_congr rfl fun c _ => ?_
  rw [lhsIdx_eq, rhsIdx_eq]

/-- A `tpu.matmul` with these dimension numbers into the zero accumulator, at the ideal values, read at (a, b):
    the same sum. -/
theorem matmul_zero_apply {φ₁ φ₂ : FTy} (prec : Option ContractPrecision)
    (A : FVec Ideal ⟨2, ![M, K]⟩ φ₁) (B : FVec Ideal ⟨2, ![N, K]⟩ φ₂) (a : Fin M) (b : Fin N) :
    matmul (dims w) prec A B (constant ⟨2, ![M, N]⟩ .f32 0x00000000#32) (ix2 a b)
      = ∑ c : Fin K, A (ix2 a c) * B (ix2 b c) := by
  show FloatOps.matmul _ prec A B _ (ix2 a b) = _
  rw [Ideal.matmul_constant_zero_apply, ← Equiv.sum_comp (contrEquiv1 (dims w) K rfl rfl).symm]
  refine Finset.sum_congr rfl fun c _ => ?_
  rw [lhsIdx_eq, rhsIdx_eq]

end Idealize.ShloMosaic.DotTransposedRhs

end
-- ==== Proof.QuantGemm.lean ====
/-
  One scaled matrix product in two arrangements.

  Both programs quantise the activations x (N = 4096 tokens of K = 4096 features) token by token — with
  m_n = max_k |x_{n,k}| clamped below at 1e-5 and q_n = 127 / m_n, the quantised row is
  X_{n,k} = clamp(roundeven(x_{n,k} · q_n), -128, 127) and its scale is A_n = 1 / q_n — and unpack the weights
  (M = 12288 rows of 1024 words, each word four 2-bit codes at shifts 6, 4, 2, 0) to W_{j,k} = code − 1. These host
  chains are the same text in both programs; they are named here (`quantAct`, `actScale`, `unpackW`) and never
  opened again.

  The reference then forms  ((Σ_k X_{n,k} · W_{j,k}) · s) · A_n  over the whole arrays (`refOut`), s the weight
  scale. The kernel forms, block by block, (Σ_k X_{n,k} · W_{j,k}) · (A_n · s); over the whole array that is
  `scaledGemm`, and `kerOut` is its result laid out as the program returns it. The two agree at every index because
  multiplication of extended reals is associative and commutative (`kerOut_eq_refOut`, proved in the module that
  imports this one); no entry needs to be finite for that.
-/
import Idealize.ShloMosaic.Lib.ValueIdx
import Idealize.ShloMosaic.Lib.Pipeline.Value
import Idealize.ShloMosaic.PureOps.Ideal.Laws
import proofs.«431467_j19421842112747_1_alg».proof.Proof.LibDotTransposedRhs

noncomputable section

open scoped BigOperators

namespace Cert.BitLinear

open Idealize.ShloMosaic Idealize.ShloMosaic.ValueIdx

/-! ## Shapes -/

abbrev S2x2048x4096 : Shape := ⟨3, ![2, 2048, 4096]⟩
abbrev S12288x1024 : Shape := ⟨2, ![12288, 1024]⟩
abbrev S1 : Shape := ⟨1, ![1]⟩
abbrev S4 : Shape := ⟨1, ![4]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S12288x32x32 : Shape := ⟨3, ![12288, 32, 32]⟩
abbrev S12288x32x1x32 : Shape := ⟨4, ![12288, 32, 1, 32]⟩
abbrev S1x1x4x1 : Shape := ⟨4, ![1, 1, 4, 1]⟩
abbrev S12288x32x4x32 : Shape := ⟨4, ![12288, 32, 4, 32]⟩
abbrev S12288x4096 : Shape := ⟨2, ![12288, 4096]⟩
abbrev S1x1 : Shape := ⟨2, ![1, 1]⟩
abbrev S4096x12288 : Shape := ⟨2, ![4096, 12288]⟩
abbrev S2x2048x12288 : Shape := ⟨3, ![2, 2048, 12288]⟩

/-! ## The shape relations the operations take -/

theorem flatten_x : S2x2048x4096.ShapeCasts S4096x4096 := by decide
theorem rowmax : S4096x4096.ReducesTo [1] S4096 := by decide
theorem scalar_pos : 0 < S_.numel := by decide
theorem col_of_vec : S4096.BroadcastsInDim S4096x1 (![0] : Fin 1 → Fin S4096x1.rank) := by decide
theorem col_of_scalar : S_.BroadcastsInDim S4096x1 (![] : Fin 0 → Fin S4096x1.rank) := by decide
theorem rows_of_col : S4096x1.BroadcastsInDim S4096x4096 (![0, 1] : Fin 2 → Fin S4096x4096.rank) := by decide
theorem acts_of_scalar : S_.BroadcastsInDim S4096x4096 (![] : Fin 0 → Fin S4096x4096.rank) := by decide
theorem bf16_lt_f32 : FTy.bits .bf16 < FTy.bits .f32 := by decide
theorem words_blocks : S12288x1024.ShapeCasts S12288x32x32 := by decide
theorem words_unit : S12288x32x32.BroadcastsInDim S12288x32x1x32 (![0, 1, 3] : Fin 3 → Fin S12288x32x1x32.rank) := by decide
theorem shifts_unit : S4.BroadcastsInDim S1x1x4x1 (![2] : Fin 1 → Fin S1x1x4x1.rank) := by decide
theorem words_spread : S12288x32x1x32.BroadcastsInDim S12288x32x4x32 (![0, 1, 2, 3] : Fin 4 → Fin S12288x32x4x32.rank) := by decide
theorem shifts_spread : S1x1x4x1.BroadcastsInDim S12288x32x4x32 (![0, 1, 2, 3] : Fin 4 → Fin S12288x32x4x32.rank) := by decide
theorem codes_of_scalar : S_.BroadcastsInDim S12288x32x4x32 (![] : Fin 0 → Fin S12288x32x4x32.rank) := by decide
theorem codes_flat : S12288x32x4x32.ShapeCasts S12288x4096 := by decide
theorem scale_scalar : S1.ShapeCasts S_ := by decide
theorem scale_cell : S1.ShapeCasts S1x1 := by decide
theorem out_of_scalar : S_.BroadcastsInDim S4096x12288 (![] : Fin 0 → Fin S4096x12288.rank) := by decide
theorem out_of_col : S4096x1.BroadcastsInDim S4096x12288 (![0, 1] : Fin 2 → Fin S4096x12288.rank) := by decide
theorem out_tokens : S4096x12288.ShapeCasts S2x2048x12288 := by decide
theorem gemm_wf : DotDims.WF S4096x4096 S12288x4096 S4096x12288 [1] [1] [0] [0] [] [] := by decide

/-- The product's dimension numbers: tokens × features against rows × features, the features contracted. -/
abbrev gemmDims : DotDims S4096x4096 S12288x4096 S4096x12288 := DotTransposedRhs.dims gemm_wf

/-- The four shift amounts of a packed word, most significant code first. -/
abbrev shifts : Fin 4 → BitVec 32 := fun
  | 0 => 6#32 | 1 => 4#32 | 2 => 2#32 | 3 => 0#32
  | _ => 0#32

variable {F : FTy → Type} [FloatOps F]

/-! ## The shared host chains -/

/-- The activations as tokens × features. -/
def flat (x : Vec F S2x2048x4096 .f32) : FVec F S4096x4096 .f32 := fun i => shapeCast S4096x4096 x flatten_x i

/-- The per-token quantisation scale q_n = 127 / max(1e-5, max_k |x_{n,k}|), as a column. -/
def qScale (x : Vec F S2x2048x4096 .f32) : FVec F S4096x1 .f32 :=
  Host.divf (broadcastInDim S4096x1 ![] col_of_scalar (constant S_ .f32 0x42FE0000#32))
    (maximumf (broadcastInDim S4096x1 ![] col_of_scalar (id (constant S_ .f32 0x3727C5AC#32)))
      (broadcastInDim S4096x1 ![0] col_of_vec
        (Host.reduce FloatOps.maximumf (Host.absf (flat x)) (constant S_ .f32 0xFF800000#32) rowmax scalar_pos)))

/-- The quantised activations X_{n,k} = clamp(roundeven(x_{n,k} · q_n), -128, 127). -/
def quantAct (x : Vec F S2x2048x4096 .f32) : FVec F S4096x4096 .f32 :=
  minimumf (broadcastInDim S4096x4096 ![] acts_of_scalar (id (constant S_ .f32 0x42FE0000#32)))
    (maximumf (broadcastInDim S4096x4096 ![] acts_of_scalar (id (constant S_ .f32 0xC3000000#32)))
      (Host.roundeven (mulf (flat x) (broadcastInDim S4096x4096 ![0, 1] rows_of_col (qScale x)))))

/-- The per-token dequantisation scale A_n = 1 / q_n, as a column. -/
def actScale (x : Vec F S2x2048x4096 .f32) : FVec F S4096x1 .f32 :=
  Host.divf (broadcastInDim S4096x1 ![] col_of_scalar (constant S_ .f32 0x3F800000#32)) (qScale x)

/-- The unpacked weights W_{j,k}: each packed word's four 2-bit codes, minus one, rows × features. -/
def unpackW (w : IVec S12288x1024 32) : FVec F S12288x4096 .f32 := fun i =>
  shapeCast S12288x4096
    (subf
      (sitofp .f32
        (andi
          (Host.shrsi
            (broadcastInDim S12288x32x4x32 ![0, 1, 2, 3] words_spread
              (broadcastInDim S12288x32x1x32 ![0, 1, 3] words_unit (fun i => shapeCast S12288x32x32 w words_blocks i)))
            (broadcastInDim S12288x32x4x32 ![0, 1, 2, 3] shifts_spread
              (broadcastInDim S1x1x4x1 ![2] shifts_unit (fun i => shifts (S4.rowMajor i)))))
          (broadcastInDim S12288x32x4x32 ![] codes_of_scalar (constantI S_ 32 3#32))))
      (broadcastInDim S12288x32x4x32 ![] codes_of_scalar (constant S_ .f32 0x3F800000#32)))
    codes_flat i

/-! ## The reference's arrangement -/

/-- ((X · Wᵀ) · s) · A over the whole arrays, returned as batch × sequence × rows. -/
def refOut (x : Vec F S2x2048x4096 .f32) (w : IVec S12288x1024 32) (s : Vec F S1 .f32) : FVec F S2x2048x12288 .f32 := fun i =>
  shapeCast S2x2048x12288
    (mulf
      (mulf (Host.dotGeneral gemmDims none (quantAct x) (unpackW w))
        (broadcastInDim S4096x12288 ![] out_of_scalar (fun i => shapeCast S_ s scale_scalar i)))
      (broadcastInDim S4096x12288 ![0, 1] out_of_col (actScale x)))
    out_tokens i

/-! ## The kernel's arrangement -/

/-- (Σ_k X_{n,k} · W_{j,k}) · (A_n · s) at every (n, j): what the kernel's blocks are blocks of. -/
def scaledGemm (X : FVec Ideal S4096x4096 .bf16) (Wt : FVec Ideal S12288x4096 .bf16) (A : FVec Ideal S4096x1 .f32)
    (S : FVec Ideal S1x1 .f32) : FVec Ideal S4096x12288 .f32 := fun i =>
  (∑ k : Fin 4096, X (ix2 (i 0 : Fin 4096) k) * Wt (ix2 (i 1 : Fin 12288) k))
    * (A (ix2 (i 0 : Fin 4096) (0 : Fin 1)) * S (ix2 (0 : Fin 1) (0 : Fin 1)))

/-- The kernel program's result: `scaledGemm` of the quantised activations and unpacked weights (stored as bf16),
    the activation scales and the weight scale as a 1×1 cell, returned as batch × sequence × rows. -/
def kerOut (x : Vec Ideal S2x2048x4096 .f32) (w : IVec S12288x1024 32) (s : Vec Ideal S1 .f32) : FVec Ideal S2x2048x12288 .f32 := fun i =>
  shapeCast S2x2048x12288
    (scaledGemm (truncf .bf16 (quantAct x) bf16_lt_f32) (truncf .bf16 (unpackW w) bf16_lt_f32) (actScale x)
      (fun i => shapeCast S1x1 s scale_cell i))
    out_tokens i

end Cert.BitLinear

end
-- ==== Proof.QuantGemmLaw.lean ====
/-
  The kernel's arrangement of the scaled product equals the reference's, index by index.

  For ANY arrays X (tokens × features), Wt (rows × features), a column A of per-token scales and a one-entry
  scale s, the value (Σ_k X_{n,k} · Wt_{j,k}) · (A_n · s) is ((Σ_k X_{n,k} · Wt_{j,k}) · s) · A_n: multiplication
  of extended reals is associative and commutative, and storing X and Wt in a narrower float format changes
  nothing at the ideal values. The law is proved over such arbitrary arrays and only then read at the quantised
  activations and the unpacked weights, which are never opened.
-/
import proofs.«431467_j19421842112747_1_alg».proof.Proof.QuantGemm

noncomputable section

open scoped BigOperators

namespace Cert.BitLinear

open Idealize.ShloMosaic Idealize.ShloMosaic.ValueIdx

/-- The weight scale read as a scalar is the array's one entry. -/
theorem scale_scalar_apply (s : Vec Ideal S1 .f32) (j : S_.Idx) : shapeCast S_ s scale_scalar j = s (ix1 (0 : Fin 1)) :=
  shapeCast_apply s scale_scalar j (ix1 (0 : Fin 1)) (by
    have h : (S_.rowMajor j).val < 1 := (S_.rowMajor j).isLt
    rw [Shape.rowMajor_val_one]
    show (0 : ℕ) = _
    omega)

/-- The weight scale read as a 1×1 cell is the array's one entry. -/
theorem scale_cell_apply (s : Vec Ideal S1 .f32) : shapeCast S1x1 s scale_cell (ix2 (0 : Fin 1) (0 : Fin 1)) = s (ix1 (0 : Fin 1)) :=
  shapeCast_apply s scale_cell _ (ix1 (0 : Fin 1)) (by
    rw [Shape.rowMajor_val_one, Shape.rowMajor_val_two]; rfl)

/-- A column of per-token scales spread over the rows axis reads, at (n, j), the column's entry n. -/
theorem col_spread_apply (A : FVec Ideal S4096x1 .f32) (a : Fin 4096) (b : Fin 12288) :
    broadcastInDim S4096x12288 ![0, 1] out_of_col A (ix2 a b) = A (ix2 a (0 : Fin 1)) :=
  broadcastInDim_apply _ out_of_col A (ix2 a b) (ix2 a (0 : Fin 1)) fun ax => by
    match ax with
    | ⟨0, _⟩ => rfl
    | ⟨1, _⟩ => rfl

/-- The one law: a product times (A · s) is that product times s, times A. -/
theorem mul_scales (P A s : EReal) : P * (A * s) = P * s * A := by
  rw [mul_assoc, mul_comm s]

/-- Over arbitrary arrays: the kernel's whole-array function is the reference's three host operations. -/
theorem scaledGemm_eq (X : FVec Ideal S4096x4096 .f32) (Wt : FVec Ideal S12288x4096 .f32) (A : FVec Ideal S4096x1 .f32)
    (s : Vec Ideal S1 .f32) :
    scaledGemm (truncf .bf16 X bf16_lt_f32) (truncf .bf16 Wt bf16_lt_f32) A (fun i => shapeCast S1x1 s scale_cell i)
      = mulf (mulf (Host.dotGeneral gemmDims none X Wt)
            (broadcastInDim S4096x12288 ![] out_of_scalar (fun i => shapeCast S_ s scale_scalar i)))
          (broadcastInDim S4096x12288 ![0, 1] out_of_col A) := by
  funext j
  obtain ⟨a, b, rfl⟩ : ∃ (a : Fin 4096) (b : Fin 12288), j = ix2 a b := ⟨j 0, j 1, eq_ix2 j⟩
  rw [mulf_apply, mulf_apply, col_spread_apply, DotTransposedRhs.dotGeneral_apply]
  have hs : broadcastInDim S4096x12288 ![] out_of_scalar (fun i => shapeCast S_ s scale_scalar i) (ix2 a b)
      = s (ix1 (0 : Fin 1)) := scale_scalar_apply s _
  rw [hs, ← mul_scales, ← scale_cell_apply s]
  rfl

/-- At every index the kernel's (Σ X·W) · (A · s) is the reference's ((Σ X·W) · s) · A. -/
theorem kerOut_eq_refOut (x : Vec Ideal S2x2048x4096 .f32) (w : IVec S12288x1024 32) (s : Vec Ideal S1 .f32) :
    kerOut x w s = refOut (F := Ideal) x w s := by
  funext i
  unfold kerOut refOut
  rw [scaledGemm_eq]

end Cert.BitLinear

end
-- ==== Proof.LibKeepdimsColumn.lean ====
/-
  A vector kept as one column, read at an index: an array of shape [a] viewed as [a, 1] holds at (i, u) the entry i of
  the vector (the unit coordinate carries nothing), and an [a, 1] column broadcast to [a, b] holds at (p, c) the
  column's entry p, whatever the column c. These are the two layout steps of a row reduction that keeps its axis
  (a sum over the lanes stored as a column and spread back over the lanes).
-/
import Idealize.ShloMosaic.Lib.ValueIdx
import Idealize.ShloMosaic.Lib.Pipeline.Value

noncomputable section

namespace Cert.Lib.KeepdimsColumn

open Idealize.ShloMosaic Idealize.ShloMosaic.ValueIdx

/-- An `[a]` array cast to `[a, 1]` reads, at `(i, u)`, the operand at `i`, whatever the unit coordinate `u`:
    both have row-major position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`: the row axis is
    kept (also when `a = 1`, where `p = 0`), the unit column axis is spread. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.KeepdimsColumn

end
-- ==== Proof.KernelBlock.lean ====
/-
  What one grid point's body stores, read at an index. From a block X of quantised activations (512 tokens × 4096
  features), a block Wt of unpacked weights (1024 rows × 4096 features), the 512 tokens' scales as a column A and the
  weight scale as a 1×1 cell S, the body stores at (p, q)

      (Σ_k X_{p,k} · Wt_{q,k}) · (A_p · S)

  at the ideal values: the matmul contracts the features of both blocks into a zero accumulator, the scale column is
  multiplied by the cell's one entry and spread over the 1024 rows, and the two are multiplied entry by entry. The
  casts of a block to its own shape are the identity.
-/
import proofs.«431467_j19421842112747_1_alg».proof.Proof.Gen.KernelIdeal.Skeleton
import proofs.«431467_j19421842112747_1_alg».proof.Proof.LibDotTransposedRhs
import proofs.«431467_j19421842112747_1_alg».proof.Proof.LibKeepdimsColumn
import Idealize.ShloMosaic.Lib.ValueIdx
import Idealize.ShloMosaic.Lib.Pipeline.Value

noncomputable section

open scoped BigOperators

namespace Cert.KernelIdeal.BlockValue

open Cert.KernelIdeal Cert.KernelIdeal.Gen Idealize.ShloMosaic Idealize.ShloMosaic.ValueIdx

/-- The block product's dimension numbers are the features-against-features contraction. -/
theorem blockDims_eq :
    dot_S512x4096_S1024x4096_S512x1024_1_1_0_0_n_n
      = DotTransposedRhs.dims Facts₀.dot_S512x4096_S1024x4096_S512x1024_1_1_0_0_n_n_wf := rfl

/-- The weight scale's cell read at its one position. -/
theorem cell_entry (S : Vec Ideal S1x1 .f32) (h : ∀ a, (![0, 0] : Fin S1x1.rank → Nat) a < S1x1.size a) :
    extractAt (s := S1x1) (α := Ideal .f32) (![0, 0] : Fin S1x1.rank → Nat) S h = S (ix2 (0 : Fin 1) (0 : Fin 1)) :=
  congrArg S (funext fun a => Fin.ext (by
    match a with
    | ⟨0, _⟩ => rfl
    | ⟨1, _⟩ => rfl))

/-- The body's stored value at (p, q): the blocks' contraction over the features, times the token's scale times
    the weight scale. -/
theorem stored_apply (X : Vec Ideal S512x4096 .bf16) (Wt : Vec Ideal S1024x4096 .bf16) (A : Vec Ideal S512x1 .f32)
    (S : Vec Ideal S1x1 .f32) (p : Fin 512) (q : Fin 1024) :
    k0_pay1 (F := Ideal) X Wt A S (ix2 p q)
      = (∑ k : Fin 4096, X (ix2 p k) * Wt (ix2 q k)) * (A (ix2 p (0 : Fin 1)) * S (ix2 (0 : Fin 1) (0 : Fin 1))) := by
  unfold k0_pay1
  show matmul dot_S512x4096_S1024x4096_S512x1024_1_1_0_0_n_n none
        (shapeCast S512x4096 X Facts₀.shapeCasts_S512x4096_S512x4096)
        (shapeCast S1024x4096 Wt Facts₀.shapeCasts_S1024x4096_S1024x4096)
        (constant S512x1024 .f32 0x00000000#32) (ix2 p q)
      * broadcastTo S512x1024
          (mulf (shapeCast S512x1 A Facts₀.shapeCasts_S512x1_S512x1)
            (broadcast S512x1 (extractAt (s := S1x1) (α := Ideal .f32) (![0, 0] : Fin S1x1.rank → Nat) S Facts₀.inpos_S1x1_p0_0)))
          Facts₀.broadcasts_S512x1_S512x1024 (ix2 p q) = _
  rw [shapeCast_self, shapeCast_self, shapeCast_self, Cert.Lib.KeepdimsColumn.broadcastTo_a1_ab_apply, blockDims_eq,
    DotTransposedRhs.matmul_zero_apply, cell_entry]
  rfl

end Cert.KernelIdeal.BlockValue

end
-- ==== Proof.KernelGrid.lean ====
/-
  The grid's arithmetic. The 12 × 8 grid is walked row-major, so point t has column-block i_t = t / 8 (of 12, 1024
  weight rows each) and row-block j_t = t % 8 (of 8, 512 tokens each). Decided once over the 96 points: the
  activations' and the scale column's blocks are at block row j_t, the weights' block at block row i_t, the cell's
  block at the origin, the output's block at (j_t, i_t). From that: entry (p, q) of point t's output block is
  entry (512·j_t + p, 1024·i_t + q) of the output array, and the entries of the input blocks sit on those same
  rows of their arrays.
-/
import proofs.«431467_j19421842112747_1_alg».proof.Proof.Gen.KernelIdeal.Frame
import Idealize.ShloMosaic.Lib.ValueIdx
import Idealize.ShloMosaic.Lib.Pipeline.Value

set_option maxRecDepth 16384
set_option Elab.async false

noncomputable section

namespace Cert.KernelIdeal.GridValue

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

/-- The output's block indices at point t: block row t % 8, block column t / 8. -/
theorem outIdx : ∀ t : Fin cfg0.N, win0_4.index t (0 : Fin 2) = t.val % 8 ∧ win0_4.index t (1 : Fin 2) = t.val / 8 :=
  (by decide +kernel : ∀ t : Fin grid0.N, _)

/-- The activations' block indices at point t: block row t % 8, the one block column. -/
theorem actsIdx : ∀ t : Fin cfg0.N, win0_0.index t (0 : Fin 2) = t.val % 8 ∧ win0_0.index t (1 : Fin 2) = 0 :=
  (by decide +kernel : ∀ t : Fin grid0.N, _)

/-- The weights' block indices at point t: block row t / 8, the one block column. -/
theorem weightsIdx : ∀ t : Fin cfg0.N, win0_1.index t (0 : Fin 2) = t.val / 8 ∧ win0_1.index t (1 : Fin 2) = 0 :=
  (by decide +kernel : ∀ t : Fin grid0.N, _)

/-- The scale column's block indices at point t: block row t % 8, the one column. -/
theorem scalesIdx : ∀ t : Fin cfg0.N, win0_2.index t (0 : Fin 2) = t.val % 8 ∧ win0_2.index t (1 : Fin 2) = 0 :=
  (by decide +kernel : ∀ t : Fin grid0.N, _)

/-- The cell's block is the whole cell at every point. -/
theorem cellIdx : ∀ t : Fin cfg0.N, win0_3.index t (0 : Fin 2) = 0 ∧ win0_3.index t (1 : Fin 2) = 0 :=
  (by decide +kernel : ∀ t : Fin grid0.N, _)

/-- The grid has 96 points, as a bound `omega` can use. -/
theorem point_lt (t : Fin cfg0.N) : t.val < 96 := N_0 ▸ t.isLt

/-- The array row of entry p of point t's output block. -/
def row (t : Fin cfg0.N) (p : Fin 512) : Fin 4096 :=
  ⟨t.val % 8 * 512 + p.val, by have := p.isLt; omega⟩

/-- The array column of entry q of point t's output block. -/
def col (t : Fin cfg0.N) (q : Fin 1024) : Fin 12288 :=
  ⟨t.val / 8 * 1024 + q.val, by have := q.isLt; have := point_lt t; omega⟩

/-! ## Where each block's entries sit in its array -/

theorem emb_out (t : Fin cfg0.N) (p : Fin 512) (q : Fin 1024) :
    ((cfg0.win 4).blk t).view.emb (ix2 p q) = ix2 (row t p) (col t q) := by
  obtain ⟨e0, e1⟩ := outIdx t
  funext a; apply Fin.ext
  match a with
  | ⟨0, _⟩ => show win0_4.index t (0 : Fin 2) * 512 + 1 * p.val = t.val % 8 * 512 + p.val; omega
  | ⟨1, _⟩ => show win0_4.index t (1 : Fin 2) * 1024 + 1 * q.val = t.val / 8 * 1024 + q.val; omega

theorem emb_acts (t : Fin cfg0.N) (p : Fin 512) (k : Fin 4096) :
    ((cfg0.win 0).blk t).view.emb (ix2 p k) = ix2 (row t p) k := by
  obtain ⟨e0, e1⟩ := actsIdx t
  funext a; apply Fin.ext
  match a with
  | ⟨0, _⟩ => show win0_0.index t (0 : Fin 2) * 512 + 1 * p.val = t.val % 8 * 512 + p.val; omega
  | ⟨1, _⟩ => show win0_0.index t (1 : Fin 2) * 4096 + 1 * k.val = k.val; omega

theorem emb_weights (t : Fin cfg0.N) (q : Fin 1024) (k : Fin 4096) :
    ((cfg0.win 1).blk t).view.emb (ix2 q k) = ix2 (col t q) k := by
  obtain ⟨e0, e1⟩ := weightsIdx t
  funext a; apply Fin.ext
  match a with
  | ⟨0, _⟩ => show win0_1.index t (0 : Fin 2) * 1024 + 1 * q.val = t.val / 8 * 1024 + q.val; omega
  | ⟨1, _⟩ => show win0_1.index t (1 : Fin 2) * 4096 + 1 * k.val = k.val; omega

theorem emb_scales (t : Fin cfg0.N) (p : Fin 512) :
    ((cfg0.win 2).blk t).view.emb (ix2 p (0 : Fin 1)) = ix2 (row t p) (0 : Fin 1) := by
  obtain ⟨e0, e1⟩ := scalesIdx t
  funext a; apply Fin.ext
  match a with
  | ⟨0, _⟩ => show win0_2.index t (0 : Fin 2) * 512 + 1 * p.val = t.val % 8 * 512 + p.val; omega
  | ⟨1, _⟩ => show win0_2.index t (1 : Fin 2) * 1 + 1 * 0 = 0; omega

theorem emb_cell (t : Fin cfg0.N) :
    ((cfg0.win 3).blk t).view.emb (ix2 (0 : Fin 1) (0 : Fin 1)) = ix2 (0 : Fin 1) (0 : Fin 1) := by
  obtain ⟨e0, e1⟩ := cellIdx t
  funext a; apply Fin.ext
  match a with
  | ⟨0, _⟩ => show win0_3.index t (0 : Fin 2) * 1 + 1 * 0 = 0; omega
  | ⟨1, _⟩ => show win0_3.index t (1 : Fin 2) * 1 + 1 * 0 = 0; omega

/-! ## The blocks tile the output array -/

/-- An index of the output array is in point t's block iff each coordinate is in the block's range on its axis. -/
theorem mem_block (t : Fin cfg0.N) (i : S4096x12288.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v28).slice (win0_4.rect t)).set ↔ _
  rw [View.set_slice_whole, Rect.mem_set_unit]
  exact Iff.rfl

/-- Entry (n, j) lies in the block of the point t = 8 · (j / 1024) + n / 512, a point that writes back. -/
theorem covered (i : S4096x12288.Idx) :
    ∃ t : Fin cfg0.N, (cfg0.win 4).flush t = true ∧ i ∈ ((cfg0.win 4).blk t).view.set := by
  have hi0 : (i 0).val < 4096 := (i 0).isLt
  have hi1 : (i 1).val < 12288 := (i 1).isLt
  have hN : (i 1).val / 1024 * 8 + (i 0).val / 512 < cfg0.N := by
    have h96 : cfg0.N = 96 := N_0
    omega
  obtain ⟨e0, e1⟩ := outIdx ⟨(i 1).val / 1024 * 8 + (i 0).val / 512, hN⟩
  refine ⟨⟨(i 1).val / 1024 * 8 + (i 0).val / 512, hN⟩, flush0_4 _, ?_⟩
  rw [mem_block]
  intro a
  match a with
  | ⟨0, _⟩ =>
    show win0_4.index _ (0 : Fin 2) * 512 ≤ (i 0).val ∧ (i 0).val < win0_4.index _ (0 : Fin 2) * 512 + 512
    rw [e0]; show ((i 1).val / 1024 * 8 + (i 0).val / 512) % 8 * 512 ≤ _ ∧ _ < ((i 1).val / 1024 * 8 + (i 0).val / 512) % 8 * 512 + 512
    omega
  | ⟨1, _⟩ =>
    show win0_4.index _ (1 : Fin 2) * 1024 ≤ (i 1).val ∧ (i 1).val < win0_4.index _ (1 : Fin 2) * 1024 + 1024
    rw [e1]; show ((i 1).val / 1024 * 8 + (i 0).val / 512) / 8 * 1024 ≤ _ ∧ _ < ((i 1).val / 1024 * 8 + (i 0).val / 512) / 8 * 1024 + 1024
    omega

end Cert.KernelIdeal.GridValue

end
-- ==== Proof.KernelPoint.lean ====
/-
  One grid point, over arbitrary arrays. Let X, Wt, A, S be any arrays of the four operands' shapes and xb, wb, ab, sb
  any blocks such that, at point t, xb's row p is row `row t p` of X, wb's row q is row `col t q` of Wt, ab's entry p
  is entry `row t p` of A, and sb's entry is S's. Then what the body stores at (p, q) is the scaled product of the
  four ARRAYS at (row t p, col t q): the body's sum over the features is the arrays' sum over the features, term by
  term. Nothing here mentions the program's memory: the arrays are variables.
-/
import proofs.«431467_j19421842112747_1_alg».proof.Proof.QuantGemm
import proofs.«431467_j19421842112747_1_alg».proof.Proof.KernelBlock
import proofs.«431467_j19421842112747_1_alg».proof.Proof.KernelGrid

noncomputable section

open scoped BigOperators

namespace Cert.KernelIdeal.PointValue

open Cert.KernelIdeal Cert.KernelIdeal.Gen Cert.KernelIdeal.GridValue Idealize.ShloMosaic Idealize.ShloMosaic.ValueIdx

/-- The body's stored value at (p, q) is the arrays' scaled product at the entry's place in the output array. -/
theorem stored_eq (t : Fin cfg0.N)
    (X : FVec Ideal Cert.BitLinear.S4096x4096 .bf16) (Wt : FVec Ideal Cert.BitLinear.S12288x4096 .bf16)
    (A : FVec Ideal Cert.BitLinear.S4096x1 .f32) (S : FVec Ideal Cert.BitLinear.S1x1 .f32)
    (xb : Vec Ideal S512x4096 .bf16) (wb : Vec Ideal S1024x4096 .bf16) (ab : Vec Ideal S512x1 .f32) (sb : Vec Ideal S1x1 .f32)
    (hX : ∀ (p : Fin 512) (k : Fin 4096), xb (ix2 p k) = X (ix2 (row t p) k))
    (hW : ∀ (q : Fin 1024) (k : Fin 4096), wb (ix2 q k) = Wt (ix2 (col t q) k))
    (hA : ∀ p : Fin 512, ab (ix2 p (0 : Fin 1)) = A (ix2 (row t p) (0 : Fin 1)))
    (hS : sb (ix2 (0 : Fin 1) (0 : Fin 1)) = S (ix2 (0 : Fin 1) (0 : Fin 1)))
    (p : Fin 512) (q : Fin 1024) :
    k0_pay1 (F := Ideal) xb wb ab sb (ix2 p q) = Cert.BitLinear.scaledGemm X Wt A S (ix2 (row t p) (col t q)) := by
  rw [BlockValue.stored_apply, hA, hS]
  refine congrArg (· * (A (ix2 (row t p) (0 : Fin 1)) * S (ix2 (0 : Fin 1) (0 : Fin 1)))) ?_
  exact Finset.sum_congr rfl fun k _ => by rw [hX, hW]

end Cert.KernelIdeal.PointValue

end
-- ==== Proof.KernelArray.lean ====
/-
  From the grid points' blocks to the whole output array. Point t reads tokens' block j_t of the quantised
  activations and of the scale column, rows' block i_t of the unpacked weights and the weight-scale cell, and writes
  block (j_t, i_t) of the output. Each input block is its array read through the block's place in it, so the four
  blocks at point t are related to the four arrays exactly as the one-point computation over arbitrary arrays asks:
  what point t writes back is block t of ONE whole-array function, `Cert.BitLinear.scaledGemm` of the four arrays as
  the region finds them. The blocks tile the array, hence the array ends holding that function.
-/
import proofs.«431467_j19421842112747_1_alg».proof.Proof.Gen.KernelIdeal.Frame
import proofs.«431467_j19421842112747_1_alg».proof.Proof.KernelPoint

set_option maxRecDepth 16384
set_option Elab.async false

noncomputable section

namespace Cert.KernelIdeal.ArrayValue

open Cert.KernelIdeal Cert.KernelIdeal.Gen Cert.KernelIdeal.GridValue Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

theorem origin : (![0, 0] : Fin 2 → Nat) = fun _ => 0 := funext fun a => by fin_cases a <;> rfl

/-! ## Each input block is its array read through the block's place in it

First for ANY array of the window's shape, then at the array the region finds. -/

theorem blk_acts (t : Fin cfg0.N) (X : S4096x4096.Idx → Ideal .bf16) (p : Fin 512) (k : Fin 4096) :
    ((cfg0.win 0).blk t).view.read (Elt Ideal) X (ix2 p k) = X (ix2 (row t p) k) := by
  rw [View.read_apply, emb_acts]
  rfl

theorem blk_weights (t : Fin cfg0.N) (Wt : S12288x4096.Idx → Ideal .bf16) (q : Fin 1024) (k : Fin 4096) :
    ((cfg0.win 1).blk t).view.read (Elt Ideal) Wt (ix2 q k) = Wt (ix2 (col t q) k) := by
  rw [View.read_apply, emb_weights]
  rfl

theorem blk_scales (t : Fin cfg0.N) (A : S4096x1.Idx → Ideal .f32) (p : Fin 512) :
    ((cfg0.win 2).blk t).view.read (Elt Ideal) A (ix2 p (0 : Fin 1)) = A (ix2 (row t p) (0 : Fin 1)) := by
  rw [View.read_apply, emb_scales]
  rfl

theorem blk_cell (t : Fin cfg0.N) (S : S1x1.Idx → Ideal .f32) :
    ((cfg0.win 3).blk t).view.read (Elt Ideal) S (ix2 (0 : Fin 1) (0 : Fin 1)) = S (ix2 (0 : Fin 1) (0 : Fin 1)) := by
  rw [View.read_apply, emb_cell]
  rfl

theorem read_acts (c : Dev nD) (t : Fin cfg0.N) (p : Fin 512) (k : Fin 4096) :
    iblk m c 0 t (ix2 p k) = V m c main_v13 (ix2 (row t p) k) := blk_acts t (V m c main_v13) p k

theorem read_weights (c : Dev nD) (t : Fin cfg0.N) (q : Fin 1024) (k : Fin 4096) :
    iblk m c 1 t (ix2 q k) = V m c main_v26 (ix2 (col t q) k) := blk_weights t (V m c main_v26) q k

theorem read_scales (c : Dev nD) (t : Fin cfg0.N) (p : Fin 512) :
    iblk m c 2 t (ix2 p (0 : Fin 1)) = V m c main_v12 (ix2 (row t p) (0 : Fin 1)) := blk_scales t (V m c main_v12) p

theorem read_cell (c : Dev nD) (t : Fin cfg0.N) :
    iblk m c 3 t (ix2 (0 : Fin 1) (0 : Fin 1)) = V m c main_v27 (ix2 (0 : Fin 1) (0 : Fin 1)) := blk_cell t (V m c main_v27)

/-! ## The output window, over arbitrary contents -/

/-- Writing back an uncut block: the part the transfer moves is the whole block. -/
theorem cut_apply (t : Fin cfg0.N) (v : S512x1024.Idx → Ideal .f32) (p : Fin 512) (q : Fin 1024) :
    (cfg0.win 4).cut (grid0.coords t) v (ix2 p q) = v (ix2 p q) := rfl

/-- The output array read through point t's block, at (p, q), is the array at that entry's row and column. -/
theorem read_out (t : Fin cfg0.N) (G : S4096x12288.Idx → Ideal .f32) (p : Fin 512) (q : Fin 1024) :
    ((cfg0.win 4).blk t).view.read (Elt Ideal) G (ix2 p q) = G (ix2 (row t p) (col t q)) := by
  rw [View.read_apply, emb_out]
  rfl

/-- What the body leaves in the output's buffer, from any four input blocks, is its one stored value. -/
theorem left_eq (x0 : Vec Ideal S512x4096 .bf16) (x1 : Vec Ideal S1024x4096 .bf16) (x2 : Vec Ideal S512x1 .f32)
    (x3 : Vec Ideal S1x1 .f32) : out0_4 x0 x1 x2 x3 = k0_pay1 x0 x1 x2 x3 := by
  unfold out0_4
  rw [View.canon_unit_zero origin]
  simp only [View.ld_unit_zero (S := S512x4096) origin, View.ld_unit_zero (S := S1024x4096) origin,
    View.ld_unit_zero (S := S512x1) origin, View.ld_unit_zero (S := S1x1) origin]

/-! ## What a point writes back; the array -/

/-- WHAT POINT t WRITES BACK is block t of the scaled product of the four arrays the region finds. -/
theorem flushed_eq (c : Dev nD) (t : Fin cfg0.N) :
    (dats m 0 c).flushed 4 t = ((cfg0.win 4).blk t).view.read (Elt Ideal)
      (Cert.BitLinear.scaledGemm (V m c main_v13) (V m c main_v26) (V m c main_v12) (V m c main_v27)) := by
  funext j
  obtain ⟨p, q, rfl⟩ : ∃ (p : Fin 512) (q : Fin 1024), j = ix2 p q := ⟨j 0, j 1, eq_ix2 j⟩
  rw [read_out]
  show (cfg0.win 4).cut (grid0.coords t) ((dats m 0 c).after 4 t) (ix2 p q) = _
  rw [after0_4, left_eq, cut_apply]
  exact PointValue.stored_eq t (V m c main_v13) (V m c main_v26) (V m c main_v12) (V m c main_v27)
    (iblk m c 0 t) (iblk m c 1 t) (iblk m c 2 t) (iblk m c 3 t)
    (read_acts m c t) (read_weights m c t) (read_scales m c t) (read_cell m c t) p q

/-- THE ARRAY after the run: the scaled product of the four arrays as the region finds them. -/
theorem final (c : Dev nD) :
    (dats m 0 c).arrAt 4 cfg0.N
      = Cert.BitLinear.scaledGemm (V m c main_v13) (V m c main_v26) (V m c main_v12) (V m c main_v27) :=
  (dats m 0 c).arrAt_eq_of_cover 4 _ (fun t _ => flushed_eq m c t) covered

end Cert.KernelIdeal.ArrayValue

end
-- ==== Proof.KernelHost.lean ====
/-
  What the region finds in its four arrays. The host operations before the pallas_call are the reference's own
  quantisation and unpacking chains, followed by a store of the quantised activations and the unpacked weights in
  bf16 and a view of the one-entry weight scale as a 1×1 cell. Read off the fold of those operations over the launch
  contents: the activations' array is `quantAct` of the first argument (stored as bf16), the scales' column is
  `actScale` of it, the weights' array is `unpackW` of the second argument (stored as bf16), the cell is the third
  argument cast to 1×1. The chains are compared with their names as they stand; nothing in them is evaluated.
-/
import proofs.«431467_j19421842112747_1_alg».proof.Proof.Gen.KernelIdeal.Frame
import proofs.«431467_j19421842112747_1_alg».proof.Proof.QuantGemm
import Idealize.ShloMosaic.Lib.StableHlo.Run

set_option maxRecDepth 16384
set_option Elab.async false

noncomputable section

namespace Cert.KernelIdeal.HostValue

open Cert.KernelIdeal Cert.KernelIdeal.Gen Idealize.ShloMosaic Idealize.ShloMosaic.TcCoe Idealize.ShloMosaic.StableHlo
open Idealize.SL Idealize.SL.Sem

variable {F : FTy → Type} [FloatOps F]

/-! ## The called functions' stretches, over the calls' own buffers

A called function's operation names its buffers through typed references; at the literal buffers of a call that is
the plain operation on those buffers. Stated once per stretch, so that the fold below is read over plain operations. -/

/-- The lower clamp's three operations. -/
theorem clampLowOps_eq :
    (hostOps0_1 : List (HloOp τ sig (Elt F)))
      = [ unary main_cst_0 main_call0_v0 (id : (⟨S_, .f32⟩ : BufTy).Contents (Elt F) → (⟨S_, .f32⟩ : BufTy).Contents (Elt F)),
          unary main_call0_v0 main_call0_v1 (broadcastInDim S4096x1 ![] bcast_S_S4096x1 : (⟨S_, .f32⟩ : BufTy).Contents (Elt F) → (⟨S4096x1, .f32⟩ : BufTy).Contents (Elt F)),
          binary main_call0_v1 main_v3 main_v4 (maximumf : (⟨S4096x1, .f32⟩ : BufTy).Contents (Elt F) → (⟨S4096x1, .f32⟩ : BufTy).Contents (Elt F) → (⟨S4096x1, .f32⟩ : BufTy).Contents (Elt F)) ] := rfl

/-- The rounding's one operation. -/
theorem roundOps_eq :
    (hostOps0_3 : List (HloOp τ sig (Elt F)))
      = [ unary main_v8 main_v9 (Host.roundeven : (⟨S4096x4096, .f32⟩ : BufTy).Contents (Elt F) → (⟨S4096x4096, .f32⟩ : BufTy).Contents (Elt F)) ] := rfl

/-- The two-sided clamp's six operations. -/
theorem clampOps_eq :
    (hostOps0_5 : List (HloOp τ sig (Elt F)))
      = [ unary main_cst_2 main_call2_v0 (id : (⟨S_, .f32⟩ : BufTy).Contents (Elt F) → (⟨S_, .f32⟩ : BufTy).Contents (Elt F)),
          unary main_call2_v0 main_call2_v1 (broadcastInDim S4096x4096 ![] bcast_S_S4096x4096 : (⟨S_, .f32⟩ : BufTy).Contents (Elt F) → (⟨S4096x4096, .f32⟩ : BufTy).Contents (Elt F)),
          binary main_call2_v1 main_v9 main_call2_v2 (maximumf : (⟨S4096x4096, .f32⟩ : BufTy).Contents (Elt F) → (⟨S4096x4096, .f32⟩ : BufTy).Contents (Elt F) → (⟨S4096x4096, .f32⟩ : BufTy).Contents (Elt F)),
          unary main_cst_3 main_call2_v3 (id : (⟨S_, .f32⟩ : BufTy).Contents (Elt F) → (⟨S_, .f32⟩ : BufTy).Contents (Elt F)),
          unary main_call2_v3 main_call2_v4 (broadcastInDim S4096x4096 ![] bcast_S_S4096x4096 : (⟨S_, .f32⟩ : BufTy).Contents (Elt F) → (⟨S4096x4096, .f32⟩ : BufTy).Contents (Elt F)),
          binary main_call2_v4 main_call2_v2 main_v10 (minimumf : (⟨S4096x4096, .f32⟩ : BufTy).Contents (Elt F) → (⟨S4096x4096, .f32⟩ : BufTy).Contents (Elt F) → (⟨S4096x4096, .f32⟩ : BufTy).Contents (Elt F)) ] := rfl

variable (m : (ℓ : Loc nD τ sig) → Buf (Elt F) ℓ)

attribute [local irreducible] Host.reduce shapeCast broadcastInDim in
set_option maxHeartbeats 400000 in
/-- The activations' array at the region's entry: the quantised activations, stored as bf16. -/
theorem acts_eq (c : Dev nD) :
    V m c main_v13 = truncf .bf16 (Cert.BitLinear.quantAct (m ((c : Thread nD τ).loc main_arg0))) Cert.BitLinear.bf16_lt_f32 := by
  dsimp only [V, V0]
  rw [clampLowOps_eq, roundOps_eq, clampOps_eq]
  simp only [hostOps0, hostOps0_2, hostOps0_4, hostOps0_6, List.flatten_cons, List.flatten_nil,
    List.append_nil, List.cons_append, List.nil_append]
  after_results_simp
  rfl

attribute [local irreducible] Host.reduce shapeCast broadcastInDim in
set_option maxHeartbeats 400000 in
/-- The scales' column at the region's entry: the per-token dequantisation scales. -/
theorem scales_eq (c : Dev nD) :
    V m c main_v12 = Cert.BitLinear.actScale (m ((c : Thread nD τ).loc main_arg0)) := by
  dsimp only [V, V0]
  rw [clampLowOps_eq, roundOps_eq, clampOps_eq]
  simp only [hostOps0, hostOps0_2, hostOps0_4, hostOps0_6, List.flatten_cons, List.flatten_nil,
    List.append_nil, List.cons_append, List.nil_append]
  after_results_simp
  rfl

attribute [local irreducible] Host.reduce shapeCast broadcastInDim in
set_option maxHeartbeats 400000 in
/-- The weights' array at the region's entry: the unpacked weights, stored as bf16. -/
theorem weights_eq (c : Dev nD) :
    V m c main_v26 = truncf .bf16 (Cert.BitLinear.unpackW (F := F) (m ((c : Thread nD τ).loc main_arg1))) Cert.BitLinear.bf16_lt_f32 := by
  dsimp only [V, V0]
  rw [clampLowOps_eq, roundOps_eq, clampOps_eq]
  simp only [hostOps0, hostOps0_2, hostOps0_4, hostOps0_6, List.flatten_cons, List.flatten_nil,
    List.append_nil, List.cons_append, List.nil_append]
  after_results_simp
  rfl

attribute [local irreducible] shapeCast in
set_option maxHeartbeats 400000 in
/-- The cell at the region's entry: the one-entry weight scale viewed as 1×1. -/
theorem cell_eq (c : Dev nD) :
    V m c main_v27 = fun i => shapeCast Cert.BitLinear.S1x1 (m ((c : Thread nD τ).loc main_arg2)) Cert.BitLinear.scale_cell i := by
  dsimp only [V, V0]
  rw [clampLowOps_eq, roundOps_eq, clampOps_eq]
  simp only [hostOps0, hostOps0_2, hostOps0_4, hostOps0_6, List.flatten_cons, List.flatten_nil,
    List.append_nil, List.cons_append, List.nil_append]
  after_results_simp
  rfl

set_option maxHeartbeats 400000 in
/-- The program's result buffer after the one host operation that follows the region: the region's output array
    (what the pipeline's proof data says it holds after the last grid point) viewed as batch × sequence × rows. -/
theorem tail_eq (c : Dev nD) :
    Pipeline.afterTail₀ cfgs (dats m) 0 (V0 m) [hostOps1] c main_v29
      = fun i => shapeCast S2x2048x12288 ((dats m 0 c).arrAt 4 cfg0.N) Facts₀.shapeCasts_S4096x12288_S2x2048x12288 i := by
  unfold Pipeline.afterTail₀
  show StableHlo.after hostOps1 _ (Proc.devRef .tc main_v29) = _
  after_results
  funext i
  show shapeCast S2x2048x12288
      (Pipeline.withArrays spec0 c (V0 m c) (fun w => (dats m 0 c).arrAt w cfg0.N) (Proc.devRef .tc (Pipeline.arrRef spec0 4)))
      Facts₀.shapeCasts_S4096x12288_S2x2048x12288 i = _
  rw [Pipeline.withArrays_arr spec0 launch0.win.arr_inj c _ _ 4]

end Cert.KernelIdeal.HostValue

end
-- ==== Proof.KernelRun.lean ====
/-
  The kernel program's run, read back. The frame run ends with the region's output array at what the pipeline's proof
  data computes and every other unscoped buffer as the one host operation after the region leaves it. That
  operation views the output array as batch × sequence × rows; the output array is the scaled product of the four
  arrays the region finds; and those are the named host chains of the arguments. Put together, the result buffer
  holds `Cert.BitLinear.kerOut` of the three argument arrays — (Σ_k X·W) · (A · s) laid out as the program returns it
  — and the argument buffers are as launched.
-/
import proofs.«431467_j19421842112747_1_alg».proof.Proof.Gen.KernelIdeal.Frame
import proofs.«431467_j19421842112747_1_alg».proof.Proof.KernelArray
import proofs.«431467_j19421842112747_1_alg».proof.Proof.KernelHost

set_option maxRecDepth 16384
set_option Elab.async false

noncomputable section

namespace Cert.KernelIdeal.RunValue

open Cert.KernelIdeal Cert.KernelIdeal.Gen Idealize.ShloMosaic Idealize.ShloMosaic.TcCoe
open Idealize.SL Idealize.SL.Sem

variable (m : (ℓ : Loc nD τ sig) → Buf (Elt Ideal) ℓ)

/-- The result buffer after the run is the kernel's arrangement of the scaled product of the arguments. -/
theorem result_eq (c : Dev nD) :
    Pipeline.afterTail₀ cfgs (dats m) 0 (V0 m) [hostOps1] c main_v29
      = Cert.BitLinear.kerOut (m ((c : Thread nD τ).loc main_arg0)) (m ((c : Thread nD τ).loc main_arg1))
          (m ((c : Thread nD τ).loc main_arg2)) := by
  rw [HostValue.tail_eq, ArrayValue.final, HostValue.acts_eq, HostValue.weights_eq, HostValue.scales_eq, HostValue.cell_eq]
  rfl

/-- Every weakly fair execution of the kernel program terminates with its result at (Σ_k X·W) · (A · s) of the argument
    arrays and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v29)
        = Cert.BitLinear.kerOut (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v29 (Pipeline.mem_restRefs_of main_v29 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.RunValue

end
-- ==== Proof.RefRun.lean ====
/-
  The reference program's run, read back. Its @main is a straight line of 48 host operations once the three
  functions it calls (the lower clamp of the row maximum, the rounding, the two-sided clamp of the quantised
  activations) are written out at their call sites over each call's own buffers. Every weakly fair execution
  therefore terminates with each buffer at the fold of those operations over the launch contents; at the result
  buffer that fold is `Cert.BitLinear.refOut` of the three argument arrays — ((X · Wᵀ) · s) · A with X, A the
  quantised activations and their scales and W the unpacked weights — and the argument buffers are never written.
-/
import proofs.«431467_j19421842112747_1_alg».proof.Proof.Gen.ReferenceIdeal
import proofs.«431467_j19421842112747_1_alg».proof.Proof.QuantGemm
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls written out over each call's own buffers: the lower clamp is three (the
    bound converted to its own type, broadcast to a column, the maximum), the rounding one, the two-sided clamp six
    (each bound converted and broadcast, the maximum with the lower, the minimum with the upper). A called function's
    operation names its buffers through typed references; at these literal buffers that is the same operation as the
    plain one written here. -/
abbrev ops : List (HloOp τ sig (Elt F)) :=
  [ nullary main_c (fun i => lit0 (S4.rowMajor i)),
    reshape main_arg0 main_v0 rfl shapeCasts_S2x2048x4096_S4096x4096,
    unary main_v0 main_v1 (Host.absf : (⟨S4096x4096, .f32⟩ : BufTy).Contents (Elt F) → (⟨S4096x4096, .f32⟩ : BufTy).Contents (Elt F)),
    nullary main_cst (constant S_ .f32 0xFF800000#32),
    binary main_v1 main_cst main_v2 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v2 main_v3 (broadcastInDim S4096x1 ![0] bcast_S4096_S4096x1_0 : (⟨S4096, .f32⟩ : BufTy).Contents (Elt F) → (⟨S4096x1, .f32⟩ : BufTy).Contents (Elt F)),
    nullary main_cst_0 (constant S_ .f32 0x3727C5AC#32),
    unary main_cst_0 main_call0_v0 (id : (⟨S_, .f32⟩ : BufTy).Contents (Elt F) → (⟨S_, .f32⟩ : BufTy).Contents (Elt F)),
    unary main_call0_v0 main_call0_v1 (broadcastInDim S4096x1 ![] bcast_S_S4096x1 : (⟨S_, .f32⟩ : BufTy).Contents (Elt F) → (⟨S4096x1, .f32⟩ : BufTy).Contents (Elt F)),
    binary main_call0_v1 main_v3 main_v4 (maximumf : (⟨S4096x1, .f32⟩ : BufTy).Contents (Elt F) → (⟨S4096x1, .f32⟩ : BufTy).Contents (Elt F) → (⟨S4096x1, .f32⟩ : BufTy).Contents (Elt F)),
    nullary main_cst_1 (constant S_ .f32 0x42FE0000#32),
    unary main_cst_1 main_v5 (broadcastInDim S4096x1 ![] bcast_S_S4096x1 : (⟨S_, .f32⟩ : BufTy).Contents (Elt F) → (⟨S4096x1, .f32⟩ : BufTy).Contents (Elt F)),
    binary main_v5 main_v4 main_v6 (Host.divf : (⟨S4096x1, .f32⟩ : BufTy).Contents (Elt F) → (⟨S4096x1, .f32⟩ : BufTy).Contents (Elt F) → (⟨S4096x1, .f32⟩ : BufTy).Contents (Elt F)),
    unary main_v6 main_v7 (broadcastInDim S4096x4096 ![0, 1] bcast_S4096x1_S4096x4096_0_1 : (⟨S4096x1, .f32⟩ : BufTy).Contents (Elt F) → (⟨S4096x4096, .f32⟩ : BufTy).Contents (Elt F)),
    binary main_v0 main_v7 main_v8 (mulf : (⟨S4096x4096, .f32⟩ : BufTy).Contents (Elt F) → (⟨S4096x4096, .f32⟩ : BufTy).Contents (Elt F) → (⟨S4096x4096, .f32⟩ : BufTy).Contents (Elt F)),
    unary main_v8 main_v9 (Host.roundeven : (⟨S4096x4096, .f32⟩ : BufTy).Contents (Elt F) → (⟨S4096x4096, .f32⟩ : BufTy).Contents (Elt F)),
    nullary main_cst_2 (constant S_ .f32 0xC3000000#32),
    nullary main_cst_3 (constant S_ .f32 0x42FE0000#32),
    unary main_cst_2 main_call2_v0 (id : (⟨S_, .f32⟩ : BufTy).Contents (Elt F) → (⟨S_, .f32⟩ : BufTy).Contents (Elt F)),
    unary main_call2_v0 main_call2_v1 (broadcastInDim S4096x4096 ![] bcast_S_S4096x4096 : (⟨S_, .f32⟩ : BufTy).Contents (Elt F) → (⟨S4096x4096, .f32⟩ : BufTy).Contents (Elt F)),
    binary main_call2_v1 main_v9 main_call2_v2 (maximumf : (⟨S4096x4096, .f32⟩ : BufTy).Contents (Elt F) → (⟨S4096x4096, .f32⟩ : BufTy).Contents (Elt F) → (⟨S4096x4096, .f32⟩ : BufTy).Contents (Elt F)),
    unary main_cst_3 main_call2_v3 (id : (⟨S_, .f32⟩ : BufTy).Contents (Elt F) → (⟨S_, .f32⟩ : BufTy).Contents (Elt F)),
    unary main_call2_v3 main_call2_v4 (broadcastInDim S4096x4096 ![] bcast_S_S4096x4096 : (⟨S_, .f32⟩ : BufTy).Contents (Elt F) → (⟨S4096x4096, .f32⟩ : BufTy).Contents (Elt F)),
    binary main_call2_v4 main_call2_v2 main_v10 (minimumf : (⟨S4096x4096, .f32⟩ : BufTy).Contents (Elt F) → (⟨S4096x4096, .f32⟩ : BufTy).Contents (Elt F) → (⟨S4096x4096, .f32⟩ : BufTy).Contents (Elt F)),
    nullary main_cst_4 (constant S_ .f32 0x3F800000#32),
    unary main_cst_4 main_v11 (broadcastInDim S4096x1 ![] bcast_S_S4096x1 : (⟨S_, .f32⟩ : BufTy).Contents (Elt F) → (⟨S4096x1, .f32⟩ : BufTy).Contents (Elt F)),
    binary main_v11 main_v6 main_v12 (Host.divf : (⟨S4096x1, .f32⟩ : BufTy).Contents (Elt F) → (⟨S4096x1, .f32⟩ : BufTy).Contents (Elt F) → (⟨S4096x1, .f32⟩ : BufTy).Contents (Elt F)),
    reshape main_arg1 main_v13 rfl shapeCasts_S12288x1024_S12288x32x32,
    unary main_v13 main_v14 (broadcastInDim S12288x32x1x32 ![0, 1, 3] bcast_S12288x32x32_S12288x32x1x32_0_1_3 : (⟨S12288x32x32, .i32⟩ : BufTy).Contents (Elt F) → (⟨S12288x32x1x32, .i32⟩ : BufTy).Contents (Elt F)),
    unary main_c main_v15 (broadcastInDim S1x1x4x1 ![2] bcast_S4_S1x1x4x1_2 : (⟨S4, .i32⟩ : BufTy).Contents (Elt F) → (⟨S1x1x4x1, .i32⟩ : BufTy).Contents (Elt F)),
    unary main_v14 main_v16 (broadcastInDim S12288x32x4x32 ![0, 1, 2, 3] bcast_S12288x32x1x32_S12288x32x4x32_0_1_2_3 : (⟨S12288x32x1x32, .i32⟩ : BufTy).Contents (Elt F) → (⟨S12288x32x4x32, .i32⟩ : BufTy).Contents (Elt F)),
    unary main_v15 main_v17 (broadcastInDim S12288x32x4x32 ![0, 1, 2, 3] bcast_S1x1x4x1_S12288x32x4x32_0_1_2_3 : (⟨S1x1x4x1, .i32⟩ : BufTy).Contents (Elt F) → (⟨S12288x32x4x32, .i32⟩ : BufTy).Contents (Elt F)),
    binary main_v16 main_v17 main_v18 (Host.shrsi : (⟨S12288x32x4x32, .i32⟩ : BufTy).Contents (Elt F) → (⟨S12288x32x4x32, .i32⟩ : BufTy).Contents (Elt F) → (⟨S12288x32x4x32, .i32⟩ : BufTy).Contents (Elt F)),
    nullary main_c_5 (constantI S_ 32 3#32),
    unary main_c_5 main_v19 (broadcastInDim S12288x32x4x32 ![] bcast_S_S12288x32x4x32 : (⟨S_, .i32⟩ : BufTy).Contents (Elt F) → (⟨S12288x32x4x32, .i32⟩ : BufTy).Contents (Elt F)),
    binary main_v18 main_v19 main_v20 (andi : (⟨S12288x32x4x32, .i32⟩ : BufTy).Contents (Elt F) → (⟨S12288x32x4x32, .i32⟩ : BufTy).Contents (Elt F) → (⟨S12288x32x4x32, .i32⟩ : BufTy).Contents (Elt F)),
    unary main_v20 main_v21 (sitofp .f32 : (⟨S12288x32x4x32, .i32⟩ : BufTy).Contents (Elt F) → (⟨S12288x32x4x32, .f32⟩ : BufTy).Contents (Elt F)),
    nullary main_cst_6 (constant S_ .f32 0x3F800000#32),
    unary main_cst_6 main_v22 (broadcastInDim S12288x32x4x32 ![] bcast_S_S12288x32x4x32 : (⟨S_, .f32⟩ : BufTy).Contents (Elt F) → (⟨S12288x32x4x32, .f32⟩ : BufTy).Contents (Elt F)),
    binary main_v21 main_v22 main_v23 (subf : (⟨S12288x32x4x32, .f32⟩ : BufTy).Contents (Elt F) → (⟨S12288x32x4x32, .f32⟩ : BufTy).Contents (Elt F) → (⟨S12288x32x4x32, .f32⟩ : BufTy).Contents (Elt F)),
    reshape main_v23 main_v24 rfl shapeCasts_S12288x32x4x32_S12288x4096,
    binary main_v10 main_v24 main_v25 ((fun l r => Host.dotGeneral dot_S4096x4096_S12288x4096_S4096x12288_1_1_0_0_n_n none l r) : (⟨S4096x4096, .f32⟩ : BufTy).Contents (Elt F) → (⟨S12288x4096, .f32⟩ : BufTy).Contents (Elt F) → (⟨S4096x12288, .f32⟩ : BufTy).Contents (Elt F)),
    reshape main_arg2 main_v26 rfl shapeCasts_S1_S_,
    unary main_v26 main_v27 (broadcastInDim S4096x12288 ![] bcast_S_S4096x12288 : (⟨S_, .f32⟩ : BufTy).Contents (Elt F) → (⟨S4096x12288, .f32⟩ : BufTy).Contents (Elt F)),
    binary main_v25 main_v27 main_v28 (mulf : (⟨S4096x12288, .f32⟩ : BufTy).Contents (Elt F) → (⟨S4096x12288, .f32⟩ : BufTy).Contents (Elt F) → (⟨S4096x12288, .f32⟩ : BufTy).Contents (Elt F)),
    unary main_v12 main_v29 (broadcastInDim S4096x12288 ![0, 1] bcast_S4096x1_S4096x12288_0_1 : (⟨S4096x1, .f32⟩ : BufTy).Contents (Elt F) → (⟨S4096x12288, .f32⟩ : BufTy).Contents (Elt F)),
    binary main_v28 main_v29 main_v30 (mulf : (⟨S4096x12288, .f32⟩ : BufTy).Contents (Elt F) → (⟨S4096x12288, .f32⟩ : BufTy).Contents (Elt F) → (⟨S4096x12288, .f32⟩ : BufTy).Contents (Elt F)),
    reshape main_v30 main_v31 rfl shapeCasts_S4096x12288_S2x2048x12288 ]

set_option maxRecDepth 1024 in
/-- @main is that straight line: the called functions unfolded at their calls and sequencing reassociated. -/
theorem main_eq (c : Dev nD) : main (F := F) c = seq ops := by
  simp only [main, fn_clip.body, fn_round.body, fn_clip_0.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., reshape_bufs_sub .., unary_bufs_sub .., nullary_bufs_sub .., binary_bufs_sub .., unary_bufs_sub ..,
    nullary_bufs_sub .., unary_bufs_sub .., unary_bufs_sub .., binary_bufs_sub .., nullary_bufs_sub .., unary_bufs_sub ..,
    binary_bufs_sub .., unary_bufs_sub .., binary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub .., unary_bufs_sub .., binary_bufs_sub .., reshape_bufs_sub .., unary_bufs_sub .., unary_bufs_sub ..,
    unary_bufs_sub .., unary_bufs_sub .., binary_bufs_sub .., nullary_bufs_sub .., unary_bufs_sub .., binary_bufs_sub ..,
    unary_bufs_sub .., nullary_bufs_sub .., unary_bufs_sub .., binary_bufs_sub .., reshape_bufs_sub .., binary_bufs_sub ..,
    reshape_bufs_sub .., unary_bufs_sub .., binary_bufs_sub .., unary_bufs_sub .., binary_bufs_sub .., reshape_bufs_sub ..⟩

/-- Every weakly fair execution of @main terminates with every TensorCore buffer at the fold of the operations over
    the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HostRun

end
-- ==== Proof.RefValue.lean ====
/-
  The reference program's result as one function of its arguments. The fold of @main's operations, read at the
  result buffer, is `Cert.BitLinear.refOut` of the three argument arrays: the operations were written down in
  `refOut` (and in the host chains it names) in the order the program applies them, so the two terms agree by
  computation; the reductions, casts and broadcasts inside them are compared as they stand and never evaluated.
  The argument buffers are written by no operation.
-/
import proofs.«431467_j19421842112747_1_alg».proof.Proof.RefRun

set_option Elab.async false

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce shapeCast broadcastInDim in
set_option maxRecDepth 8192 in
set_option maxHeartbeats 400000 in
/-- The fold at the result buffer is the reference's arrangement of the scaled product. -/
theorem out_eq (V : Valuation τ sig (Elt F)) :
    after ops V (main_v31 : DevRef τ sig)
      = Cert.BitLinear.refOut (V (main_arg0 : DevRef τ sig)) (V (main_arg1 : DevRef τ sig)) (V (main_arg2 : DevRef τ sig)) := by
  after_results_simp
  rfl

set_option maxRecDepth 8192 in
theorem arg0_eq (V : Valuation τ sig (Elt F)) : after ops V (main_arg0 : DevRef τ sig) = V (main_arg0 : DevRef τ sig) := by
  after_results_simp

set_option maxRecDepth 8192 in
theorem arg1_eq (V : Valuation τ sig (Elt F)) : after ops V (main_arg1 : DevRef τ sig) = V (main_arg1 : DevRef τ sig) := by
  after_results_simp

set_option maxRecDepth 8192 in
theorem arg2_eq (V : Valuation τ sig (Elt F)) : after ops V (main_arg2 : DevRef τ sig) = V (main_arg2 : DevRef τ sig) := by
  after_results_simp

/-- Every weakly fair execution of the reference terminates with its result at ((X · Wᵀ) · s) · A of the argument
    arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31)
        = Cert.BitLinear.refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v31).trans (out_eq _), (h c main_arg0).trans (arg0_eq _),
      (h c main_arg1).trans (arg1_eq _), (h c main_arg2).trans (arg2_eq _)⟩)
    (run_fold m ρ)

end Cert.ReferenceIdeal.HostRun

end
-- ==== Proof.lean ====
/-
  A quantised linear layer: activations quantised token by token to the int8 range, weights unpacked from 2-bit codes,
  their product rescaled by the per-token scale and the weight scale. The kernel forms, block by block on a 12 × 8
  grid, (Σ_k X_{n,k} · W_{j,k}) · (A_n · s); the reference forms ((Σ_k X_{n,k} · W_{j,k}) · s) · A_n over the whole
  arrays. X, A and W come from the same host chains in both programs (the kernel's stores them as bf16, which changes
  nothing at the ideal values), so the two results differ only in how the three factors are associated, and
  multiplication of extended reals is associative and commutative: equal at every index, with no use of the inputs
  being finite.

  The frames of the two kernel programs are the generated ones. The reference's frame is its run with the result
  dropped. No operation of the kernel is idealised, so `preserves` asks nothing. For `algebraic` the kernel's run
  ends with the result at `kerOut` of the arguments (the blocks assembled into the whole array, then the host's view of
  it), the reference's at `refOut` of its arguments, which agree with the kernel's; `kerOut = refOut` is the law above.
-/
import proofs.«431467_j19421842112747_1_alg».proof.Defs
import proofs.«431467_j19421842112747_1_alg».proof.Proof.Gen.Kernel
import proofs.«431467_j19421842112747_1_alg».proof.Proof.Gen.Kernel.Skeleton
import proofs.«431467_j19421842112747_1_alg».proof.Proof.Gen.Kernel.Launch
import proofs.«431467_j19421842112747_1_alg».proof.Proof.Gen.Kernel.Points
import proofs.«431467_j19421842112747_1_alg».proof.Proof.Gen.Kernel.Frame
import proofs.«431467_j19421842112747_1_alg».proof.Proof.Gen.KernelIdeal
import proofs.«431467_j19421842112747_1_alg».proof.Proof.Gen.KernelIdeal.Skeleton
import proofs.«431467_j19421842112747_1_alg».proof.Proof.Gen.KernelIdeal.Launch
import proofs.«431467_j19421842112747_1_alg».proof.Proof.Gen.KernelIdeal.Points
import proofs.«431467_j19421842112747_1_alg».proof.Proof.Gen.KernelIdeal.Frame
import proofs.«431467_j19421842112747_1_alg».proof.Proof.Gen.ReferenceIdeal
import proofs.«431467_j19421842112747_1_alg».proof.Proof.Gen.Pre_finite_inputs
import Idealize.ShloMosaic.Adequacy
import Idealize.ShloMosaic.Init

import proofs.«431467_j19421842112747_1_alg».proof.Proof.QuantGemmLaw
import proofs.«431467_j19421842112747_1_alg».proof.Proof.KernelRun
import proofs.«431467_j19421842112747_1_alg».proof.Proof.RefValue

noncomputable section

namespace Cert.Proof

open Idealize.ShloMosaic Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The reference's frame: its run, the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.HostRun.run (F := Ideal) m ρ)

/-- Both runs end with their results at the kernel's arrangement of the scaled product of the kernel's arguments:
    the kernel's by its run, the reference's by its run at arguments that agree, rewritten by the law. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.BitLinear.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.RunValue.run m ρ, ?_⟩
  refine (θ_run Cert.ReferenceIdeal.defs _ _).mono (fun _ h c => ⟨(h c).1.trans ?_, (h c).2⟩)
    (Cert.ReferenceIdeal.HostRun.run (F := Ideal) m' ρ')
  rw [(hagree c).1, (hagree c).2.1, (hagree c).2.2]
  exact (Cert.BitLinear.kerOut_eq_refOut _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
